-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536x512 : Shape := ⟨2, ![65536, 512]⟩
abbrev S65536x768 : Shape := ⟨2, ![65536, 768]⟩
abbrev S1024x10 : Shape := ⟨2, ![1024, 10]⟩
abbrev S512x10 : Shape := ⟨2, ![512, 10]⟩
abbrev S768x10 : Shape := ⟨2, ![768, 10]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S65536x768 : S_.BroadcastsInDim S65536x768 (![] : Fin 0 → Fin S65536x768.rank)
  reducesTo_S65536x768_S_d0_1 : S65536x768.ReducesTo [0, 1] S_
  bcast_S_S1024x10 : S_.BroadcastsInDim S1024x10 (![] : Fin 0 → Fin S1024x10.rank)
  reducesTo_S1024x10_S_d0_1 : S1024x10.ReducesTo [0, 1] S_
  bcast_S_S512x10 : S_.BroadcastsInDim S512x10 (![] : Fin 0 → Fin S512x10.rank)
  reducesTo_S512x10_S_d0_1 : S512x10.ReducesTo [0, 1] S_
  bcast_S_S768x10 : S_.BroadcastsInDim S768x10 (![] : Fin 0 → Fin S768x10.rank)
  reducesTo_S768x10_S_d0_1 : S768x10.ReducesTo [0, 1] S_

variable [Facts]

def fn_part1 {F : FTy → Type} [FloatOps F] (main_arg4 : FVec F S512x10 .f32) (main_arg5 : FVec F S768x10 .f32) (main_arg6 : FVec F S512x10 .f32) (main_v13 : IVec S_ 1) (main_v16 : IVec S1024x10 1) : IVec S_ 1 :=
  let main_c_5 : IVec S_ 1 := constantI S_ 1 1#1
  let main_v17 : IVec S_ 1 := (fun x v => Host.reduce IntOp.andi x v reducesTo_S1024x10_S_d0_1 h_S_) main_v16 main_c_5
  let main_v18 : IVec S_ 1 := andi main_v13 main_v17
  let main_v19 : FVec F S512x10 .f32 := Host.absf main_arg4
  let main_cst_6 : FVec F S_ .f32 := constant S_ .f32 0x7F800000#32
  let main_v20 : FVec F S512x10 .f32 := broadcastInDim S512x10 ![] bcast_S_S512x10 main_cst_6
  let main_v21 : IVec S512x10 1 := cmpf .olt main_v19 main_v20
  let main_c_7 : IVec S_ 1 := constantI S_ 1 1#1
  let main_v22 : IVec S_ 1 := (fun x v => Host.reduce IntOp.andi x v reducesTo_S512x10_S_d0_1 h_S_) main_v21 main_c_7
  let main_v23 : IVec S_ 1 := andi main_v18 main_v22
  let main_v24 : FVec F S768x10 .f32 := Host.absf main_arg5
  let main_cst_8 : FVec F S_ .f32 := constant S_ .f32 0x7F800000#32
  let main_v25 : FVec F S768x10 .f32 := broadcastInDim S768x10 ![] bcast_S_S768x10 main_cst_8
  let main_v26 : IVec S768x10 1 := cmpf .olt main_v24 main_v25
  let main_c_9 : IVec S_ 1 := constantI S_ 1 1#1
  let main_v27 : IVec S_ 1 := (fun x v => Host.reduce IntOp.andi x v reducesTo_S768x10_S_d0_1 h_S_) main_v26 main_c_9
  let main_v28 : IVec S_ 1 := andi main_v23 main_v27
  let main_v29 : FVec F S512x10 .f32 := Host.absf main_arg6
  let main_cst_10 : FVec F S_ .f32 := constant S_ .f32 0x7F800000#32
  let main_v30 : FVec F S512x10 .f32 := broadcastInDim S512x10 ![] bcast_S_S512x10 main_cst_10
  let main_v31 : IVec S512x10 1 := cmpf .olt main_v29 main_v30
  let main_c_11 : IVec S_ 1 := constantI S_ 1 1#1
  let main_v32 : IVec S_ 1 := (fun x v => Host.reduce IntOp.andi x v reducesTo_S512x10_S_d0_1 h_S_) main_v31 main_c_11
  let main_v33 : IVec S_ 1 := andi main_v28 main_v32
  main_v33

def fn {F : FTy → Type} [FloatOps F] (main_arg0 : FVec F S65536x1024 .f32) (main_arg1 : FVec F S65536x512 .f32) (main_arg2 : FVec F S65536x768 .f32) (main_arg3 : FVec F S1024x10 .f32) (main_arg4 : FVec F S512x10 .f32) (main_arg5 : FVec F S768x10 .f32) (main_arg6 : FVec F S512x10 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x768 .f32 := Host.absf main_arg2
  let main_cst_2 : FVec F S_ .f32 := constant S_ .f32 0x7F800000#32
  let main_v10 : FVec F S65536x768 .f32 := broadcastInDim S65536x768 ![] bcast_S_S65536x768 main_cst_2
  let main_v11 : IVec S65536x768 1 := cmpf .olt main_v9 main_v10
  let main_c_3 : IVec S_ 1 := constantI S_ 1 1#1
  let main_v12 : IVec S_ 1 := (fun x v => Host.reduce IntOp.andi x v reducesTo_S65536x768_S_d0_1 h_S_) main_v11 main_c_3
  let main_v13 : IVec S_ 1 := andi main_v8 main_v12
  let main_v14 : FVec F S1024x10 .f32 := Host.absf main_arg3
  let main_cst_4 : FVec F S_ .f32 := constant S_ .f32 0x7F800000#32
  let main_v15 : FVec F S1024x10 .f32 := broadcastInDim S1024x10 ![] bcast_S_S1024x10 main_cst_4
  let main_v16 : IVec S1024x10 1 := cmpf .olt main_v14 main_v15
  fn_part1 (F := F) main_arg4 main_arg5 main_arg6 main_v13 main_v16
-- ==== Kernel.lean ====
abbrev S65536x1024 : Shape := ⟨2, ![65536, 1024]⟩
abbrev S65536x512 : Shape := ⟨2, ![65536, 512]⟩
abbrev S65536x768 : Shape := ⟨2, ![65536, 768]⟩
abbrev S1024x10 : Shape := ⟨2, ![1024, 10]⟩
abbrev S512x10 : Shape := ⟨2, ![512, 10]⟩
abbrev S768x10 : Shape := ⟨2, ![768, 10]⟩
abbrev S10x512 : Shape := ⟨2, ![10, 512]⟩
abbrev S1024x1024 : Shape := ⟨2, ![1024, 1024]⟩
abbrev S1024x512 : Shape := ⟨2, ![1024, 512]⟩
abbrev S1024x768 : Shape := ⟨2, ![1024, 768]⟩

abbrev nBuf : Space → Nat
  | .hbm => 9
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x768, .f32⟩
  | .hbm, ⟨3, _⟩ => ⟨S1024x10, .f32⟩
  | .hbm, ⟨4, _⟩ => ⟨S512x10, .f32⟩
  | .hbm, ⟨5, _⟩ => ⟨S768x10, .f32⟩
  | .hbm, ⟨6, _⟩ => ⟨S512x10, .f32⟩
  | .hbm, ⟨7, _⟩ => ⟨S10x512, .f32⟩
  | .hbm, ⟨8, _⟩ => ⟨S65536x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x768, .f32⟩
  | .local _ .vmem, ⟨5, _⟩ => ⟨S1024x768, .f32⟩
  | .local _ .vmem, ⟨6, _⟩ => ⟨S1024x10, .f32⟩
  | .local _ .vmem, ⟨7, _⟩ => ⟨S512x10, .f32⟩
  | .local _ .vmem, ⟨8, _⟩ => ⟨S768x10, .f32⟩
  | .local _ .vmem, ⟨9, _⟩ => ⟨S10x512, .f32⟩
  | .local _ .vmem, ⟨10, _⟩ => ⟨S1024x512, .f32⟩
  | .local _ .vmem, ⟨11, _⟩ => ⟨S1024x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x10_S10x512_1_0 : S512x10.Transposes [1, 0] S10x512
  inb_S1024x1024_S1024x1024_0_0 : ∀ a, (![0, 0] : Fin 2 → Nat) a + S1024x1024.size a ≤ S1024x1024.size a
  h_S1024x1024 : 0 < S1024x1024.numel
  inb_S1024x10_S1024x10_0_0 : ∀ a, (![0, 0] : Fin 2 → Nat) a + S1024x10.size a ≤ S1024x10.size a
  h_S1024x10 : 0 < S1024x10.numel
  inb_S1024x512_S1024x512_0_0 : ∀ a, (![0, 0] : Fin 2 → Nat) a + S1024x512.size a ≤ S1024x512.size a
  h_S1024x512 : 0 < S1024x512.numel
  inb_S512x10_S512x10_0_0 : ∀ a, (![0, 0] : Fin 2 → Nat) a + S512x10.size a ≤ S512x10.size a
  h_S512x10 : 0 < S512x10.numel
  inb_S1024x768_S1024x768_0_0 : ∀ a, (![0, 0] : Fin 2 → Nat) a + S1024x768.size a ≤ S1024x768.size a
  h_S1024x768 : 0 < S1024x768.numel
  inb_S768x10_S768x10_0_0 : ∀ a, (![0, 0] : Fin 2 → Nat) a + S768x10.size a ≤ S768x10.size a
  h_S768x10 : 0 < S768x10.numel
  inb_S10x512_S10x512_0_0 : ∀ a, (![0, 0] : Fin 2 → Nat) a + S10x512.size a ≤ S10x512.size a
  h_S10x512 : 0 < S10x512.numel
  shapeCasts_S10x512_S10x512 : S10x512.ShapeCasts S10x512
  dot_S1024x1024_S1024x10_S1024x10_1_0_0_1_n_n_wf : DotDims.WF S1024x1024 S1024x10 S1024x10 [1] [0] [0] [1] [] []
  dot_S1024x512_S512x10_S1024x10_1_0_0_1_n_n_wf : DotDims.WF S1024x512 S512x10 S1024x10 [1] [0] [0] [1] [] []
  dot_S1024x768_S768x10_S1024x10_1_0_0_1_n_n_wf : DotDims.WF S1024x768 S768x10 S1024x10 [1] [0] [0] [1] [] []
  dot_S1024x10_S10x512_S1024x512_1_0_0_1_n_n_wf : DotDims.WF S1024x10 S10x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S65536x768.size a
  hwx0_2 : ∀ i : grid0.Coords, EltTy.bits .f32 = 32 ∨ (Rect.block (s := S65536x768) S1024x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x10.size a ≤ S1024x10.size a
  hwx0_3 : ∀ i : grid0.Coords, EltTy.bits .f32 = 32 ∨ (Rect.block (s := S1024x10) S1024x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x10.size a ≤ S512x10.size a
  hwx0_4 : ∀ i : grid0.Coords, EltTy.bits .f32 = 32 ∨ (Rect.block (s := S512x10) S512x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x10.size a ≤ S768x10.size a
  hwx0_5 : ∀ i : grid0.Coords, EltTy.bits .f32 = 32 ∨ (Rect.block (s := S768x10) S768x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x512.size a ≤ S10x512.size a
  hwx0_6 : ∀ i : grid0.Coords, EltTy.bits .f32 = 32 ∨ (Rect.block (s := S10x512) S10x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S65536x512.size a
  hwx0_7 : ∀ i : grid0.Coords, EltTy.bits .f32 = 32 ∨ (Rect.block (s := S65536x512) S1024x512.size (cc0_transform_7 i) (hinb0_7 i)).WholeWords (EltTy.packing .f32)

variable [Facts₀]

def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf
def dot_S1024x512_S512x10_S1024x10_1_0_0_1_n_n : DotDims S1024x512 S512x10 S1024x10 where
  lhsContracting := [1]
  rhsContracting := [0]
  lhsNonContracting := [0]
  rhsNonContracting := [1]
  lhsBatch := []
  rhsBatch := []
  wf := dot_S1024x512_S512x10_S1024x10_1_0_0_1_n_n_wf
def dot_S1024x768_S768x10_S1024x10_1_0_0_1_n_n : DotDims S1024x768 S768x10 S1024x10 where
  lhsContracting := [1]
  rhsContracting := [0]
  lhsNonContracting := [0]
  rhsNonContracting := [1]
  lhsBatch := []
  rhsBatch := []
  wf := dot_S1024x768_S768x10_S1024x10_1_0_0_1_n_n_wf
def dot_S1024x10_S10x512_S1024x512_1_0_0_1_n_n : DotDims S1024x10 S10x512 S1024x512 where
  lhsContracting := [1]
  rhsContracting := [0]
  lhsNonContracting := [0]
  rhsNonContracting := [1]
  lhsBatch := []
  rhsBatch := []
  wf := dot_S1024x10_S10x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S10x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536x512 : Shape := ⟨2, ![65536, 512]⟩
abbrev S65536x768 : Shape := ⟨2, ![65536, 768]⟩
abbrev S1024x10 : Shape := ⟨2, ![1024, 10]⟩
abbrev S512x10 : Shape := ⟨2, ![512, 10]⟩
abbrev S768x10 : Shape := ⟨2, ![768, 10]⟩
abbrev S65536x10 : Shape := ⟨2, ![65536, 10]⟩
abbrev S10x512 : Shape := ⟨2, ![10, 512]⟩

abbrev nBuf : Space → Nat
  | .hbm => 14
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x768, .f32⟩
  | .hbm, ⟨3, _⟩ => ⟨S1024x10, .f32⟩
  | .hbm, ⟨4, _⟩ => ⟨S512x10, .f32⟩
  | .hbm, ⟨5, _⟩ => ⟨S768x10, .f32⟩
  | .hbm, ⟨6, _⟩ => ⟨S512x10, .f32⟩
  | .hbm, ⟨7, _⟩ => ⟨S65536x10, .f32⟩
  | .hbm, ⟨8, _⟩ => ⟨S65536x10, .f32⟩
  | .hbm, ⟨9, _⟩ => ⟨S65536x10, .f32⟩
  | .hbm, ⟨10, _⟩ => ⟨S65536x10, .f32⟩
  | .hbm, ⟨11, _⟩ => ⟨S65536x10, .f32⟩
  | .hbm, ⟨12, _⟩ => ⟨S10x512, .f32⟩
  | .hbm, ⟨13, _⟩ => ⟨S65536x512, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  transposes_S512x10_S10x512_1_0 : S512x10.Transposes [1, 0] S10x512
  dot_S65536x1024_S1024x10_S65536x10_1_0_0_1_n_n_wf : DotDims.WF S65536x1024 S1024x10 S65536x10 [1] [0] [0] [1] [] []
  dot_S65536x512_S512x10_S65536x10_1_0_0_1_n_n_wf : DotDims.WF S65536x512 S512x10 S65536x10 [1] [0] [0] [1] [] []
  dot_S65536x768_S768x10_S65536x10_1_0_0_1_n_n_wf : DotDims.WF S65536x768 S768x10 S65536x10 [1] [0] [0] [1] [] []
  dot_S65536x10_S10x512_S65536x512_1_0_0_1_n_n_wf : DotDims.WF S65536x10 S10x512 S65536x512 [1] [0] [0] [1] [] []

variable [Facts₀]

def dot_S65536x1024_S1024x10_S65536x10_1_0_0_1_n_n : DotDims S65536x1024 S1024x10 S65536x10 where
  lhsContracting := [1]
  rhsContracting := [0]
  lhsNonContracting := [0]
  rhsNonContracting := [1]
  lhsBatch := []
  rhsBatch := []
  wf := dot_S65536x1024_S1024x10_S65536x10_1_0_0_1_n_n_wf
def dot_S65536x512_S512x10_S65536x10_1_0_0_1_n_n : DotDims S65536x512 S512x10 S65536x10 where
  lhsContracting := [1]
  rhsContracting := [0]
  lhsNonContracting := [0]
  rhsNonContracting := [1]
  lhsBatch := []
  rhsBatch := []
  wf := dot_S65536x512_S512x10_S65536x10_1_0_0_1_n_n_wf
def dot_S65536x768_S768x10_S65536x10_1_0_0_1_n_n : DotDims S65536x768 S768x10 S65536x10 where
  lhsContracting := [1]
  rhsContracting := [0]
  lhsNonContracting := [0]
  rhsNonContracting := [1]
  lhsBatch := []
  rhsBatch := []
  wf := dot_S65536x768_S768x10_S65536x10_1_0_0_1_n_n_wf
def dot_S65536x10_S10x512_S65536x512_1_0_0_1_n_n : DotDims S65536x10 S10x512 S65536x512 where
  lhsContracting := [1]
  rhsContracting := [0]
  lhsNonContracting := [0]
  rhsNonContracting := [1]
  lhsBatch := []
  rhsBatch := []
  wf := dot_S65536x10_S10x512_S65536x512_1_0_0_1_n_n_wf

class Facts : Prop extends Facts₀ where

variable [Facts]
-- ==== Proof.LibPlainDot.lean ====
/-
  The plain matrix product read at an index.

  A dot of a rank-2 left operand [M, K] with a rank-2 right operand [K, N], contracting the left operand's
  axis 1 with the right operand's axis 0 and batching nothing, has at the output index (b, r) the entry
  of the textbook product: the sum over k of the left operand at (b, k) times the right at (k, r). The
  library states a product's entry as a sum over the dot's own contraction index type, with the operand
  indices computed from the dimension lists; here that sum is re-indexed through the one contraction
  coordinate, for any dimension record whose lists are the plain ones, whatever the extents. Stated for
  both readings of the product on the extended reals: the kernel's accumulate into a zero splat, and
  the host's product, which has no accumulator.
-/
import Idealize.ShloMosaic.PureOps.Ideal.Laws
import Idealize.ShloMosaic.Lib.ValueIdx

noncomputable section

namespace Cert.PlainDot

open Idealize.ShloMosaic Idealize.ShloMosaic.ValueIdx

/-- The entry (b, r) of the matrix product of `lhs` [M, K] and `rhs` [K, N]: row `b` against column `r`. -/
def rowCol {M K N : Nat} (lhs : (⟨2, ![M, K]⟩ : Shape).Idx → EReal) (rhs : (⟨2, ![K, N]⟩ : Shape).Idx → EReal)
    (b : Fin M) (r : Fin N) : EReal :=
  ∑ k : Fin K, lhs (ix2 b k) * rhs (ix2 k r)

variable {M K N : Nat} (d : DotDims ⟨2, ![M, K]⟩ ⟨2, ![K, N]⟩ ⟨2, ![M, N]⟩)

/-- The dimension lists of the plain product: contract left axis 1 with right axis 0, keep left axis 0 then
    right axis 1, batch nothing. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- One axis is contracted. -/
theorem contr_rank (h : IsPlain d) : d.contr.rank = 1 := by
  rw [d.rank_contr, h.lc]; rfl

/-- Its extent is the shared dimension K. -/
theorem contr_size (h : IsPlain d) : d.contr.size ⟨0, by rw [contr_rank h]; exact Nat.one_pos⟩ = K := by
  have e := d.size_contr 0 (by rw [h.lc]; exact Nat.one_pos)
  refine e.trans ?_
  simp [h.lc]

/-- The left operand is read on its row axis at the output's row. -/
theorem lhs_row (h : IsPlain d) (j : (⟨2, ![M, N]⟩ : Shape).Idx) (q : d.contr.Idx) :
    (d.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' e => by subst e; rfl
  exact key _ _ _ _ (by simp [h.lb, h.ln])

/-- The left operand is read on its contracted axis at the contraction coordinate. -/
theorem lhs_contr (h : IsPlain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand is read on its contracted axis at the contraction coordinate. -/
theorem rhs_contr (h : IsPlain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand is read on its column axis at the output's column. -/
theorem rhs_col (h : IsPlain d) (j : (⟨2, ![M, N]⟩ : Shape).Idx) (q : d.contr.Idx) :
    (d.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' e => by subst e; rfl
  exact key _ _ _ _ (by simp [h.lb, h.ln, h.rn])

/-- The product's sum over the dot's contraction index is the sum over k of left (b, k) times right (k, r). -/
theorem sum_contr (h : IsPlain d) (lhs : (⟨2, ![M, K]⟩ : Shape).Idx → EReal) (rhs : (⟨2, ![K, N]⟩ : Shape).Idx → EReal)
    (b : Fin M) (r : Fin N) :
    ∑ q : d.contr.Idx, lhs (d.lhsIdx (ix2 b r) q) * rhs (d.rhsIdx (ix2 b r) q) = rowCol lhs rhs b r := by
  unfold rowCol
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 b r) ((contrEquiv1 d K (contr_rank h) (contr_size h)).symm k) = ix2 b k :=
    funext fun a => Fin.ext (by
      match a with
      | ⟨0, _⟩ => exact lhs_row h _ _
      | ⟨1, _⟩ => exact (lhs_contr h _ _).trans hk)
  have er : d.rhsIdx (ix2 b r) ((contrEquiv1 d K (contr_rank h) (contr_size h)).symm k) = ix2 k r :=
    funext fun a => Fin.ext (by
      match a with
      | ⟨0, _⟩ => exact (rhs_contr h _ _).trans hk
      | ⟨1, _⟩ => exact rhs_col h _ _)
  rw [el, er]

/-- A kernel's matrix product accumulated into the zero splat, on the extended reals, at (b, r). -/
theorem matmul_zero_apply (h : IsPlain d) (prec : Option ContractPrecision)
    (lhs : FVec Ideal ⟨2, ![M, K]⟩ .f32) (rhs : FVec Ideal ⟨2, ![K, N]⟩ .f32) (b : Fin M) (r : Fin N) :
    matmul d prec lhs rhs (constant (F := Ideal) ⟨2, ![M, N]⟩ .f32 0x00000000#32) (ix2 b r) = rowCol lhs rhs b r :=
  (Ideal.matmul_constant_zero_apply d prec lhs rhs (ix2 b r)).trans (sum_contr h lhs rhs b r)

/-- The host's matrix product, on the extended reals, at (b, r). -/
theorem dotGeneral_apply (h : IsPlain d) (prec : Option ContractPrecision)
    (lhs : FVec Ideal ⟨2, ![M, K]⟩ .f32) (rhs : FVec Ideal ⟨2, ![K, N]⟩ .f32) (b : Fin M) (r : Fin N) :
    Host.dotGeneral d prec lhs rhs (ix2 b r) = rowCol lhs rhs b r :=
  (Ideal.dotGeneral_apply d prec .single lhs rhs (ix2 b r)).trans (sum_contr h lhs rhs b r)

end Cert.PlainDot

end
-- ==== Proof.FusionSpec.lean ====
/-
  The low-rank fusion of three modalities, as one function of the argument arrays.

  Each modality x_i [B, D_i] is projected onto R rank components by its factor f_i [D_i, R]; the three
  projections are multiplied componentwise, and the product [B, R] is expanded to the output [B, O] by
  g [R, O]:

      fused (b, o) = sum over r of ( (x1 f1)(b, r) * (x2 f2)(b, r) * (x3 f3)(b, r) ) * g (r, o).

  Stated over generic extents, so that the same function serves a block of rows and the whole batch.
  Two facts about it: any arrays that are entrywise those four matrix products are `fused`; and a row
  of `fused` depends on the modalities through that row alone, so the fusion of a block of rows is the
  block of the fusion. Only sums and products of extended reals appear, grouped the same way on both
  sides, so nothing here needs the entries to be finite.
-/
import proofs.«401840_j40673340293781_3_alg».proof.Proof.LibPlainDot

noncomputable section

namespace Cert.RankFusion

open Idealize.ShloMosaic Idealize.ShloMosaic.ValueIdx Cert.PlainDot

variable {B D1 D2 D3 R O : Nat}

/-- The three projections multiplied componentwise, grouped (first * second) * third: entry (b, r). -/
def hadamard (x1 : (⟨2, ![B, D1]⟩ : Shape).Idx → EReal) (x2 : (⟨2, ![B, D2]⟩ : Shape).Idx → EReal)
    (x3 : (⟨2, ![B, D3]⟩ : Shape).Idx → EReal) (f1 : (⟨2, ![D1, R]⟩ : Shape).Idx → EReal)
    (f2 : (⟨2, ![D2, R]⟩ : Shape).Idx → EReal) (f3 : (⟨2, ![D3, R]⟩ : Shape).Idx → EReal) :
    (⟨2, ![B, R]⟩ : Shape).Idx → EReal :=
  fun j => rowCol x1 f1 (j 0) (j 1) * rowCol x2 f2 (j 0) (j 1) * rowCol x3 f3 (j 0) (j 1)

/-- The fused output: the componentwise product expanded by `g`. -/
def fused (x1 : (⟨2, ![B, D1]⟩ : Shape).Idx → EReal) (x2 : (⟨2, ![B, D2]⟩ : Shape).Idx → EReal)
    (x3 : (⟨2, ![B, D3]⟩ : Shape).Idx → EReal) (f1 : (⟨2, ![D1, R]⟩ : Shape).Idx → EReal)
    (f2 : (⟨2, ![D2, R]⟩ : Shape).Idx → EReal) (f3 : (⟨2, ![D3, R]⟩ : Shape).Idx → EReal)
    (g : (⟨2, ![R, O]⟩ : Shape).Idx → EReal) : (⟨2, ![B, O]⟩ : Shape).Idx → EReal :=
  fun i => rowCol (hadamard x1 x2 x3 f1 f2 f3) g (i 0) (i 1)

/-- Arrays `y1`, `y2`, `y3` that are entrywise the three projections, and `out` that is entrywise the product of
    their componentwise product with `g`, make `out` the fused output. -/
theorem eq_fused_of_entries (x1 : (⟨2, ![B, D1]⟩ : Shape).Idx → EReal) (x2 : (⟨2, ![B, D2]⟩ : Shape).Idx → EReal)
    (x3 : (⟨2, ![B, D3]⟩ : Shape).Idx → EReal) (f1 : (⟨2, ![D1, R]⟩ : Shape).Idx → EReal)
    (f2 : (⟨2, ![D2, R]⟩ : Shape).Idx → EReal) (f3 : (⟨2, ![D3, R]⟩ : Shape).Idx → EReal)
    (g : (⟨2, ![R, O]⟩ : Shape).Idx → EReal)
    (y1 y2 y3 : (⟨2, ![B, R]⟩ : Shape).Idx → EReal) (out : (⟨2, ![B, O]⟩ : Shape).Idx → EReal)
    (h1 : ∀ (b : Fin B) (r : Fin R), y1 (ix2 b r) = rowCol x1 f1 b r)
    (h2 : ∀ (b : Fin B) (r : Fin R), y2 (ix2 b r) = rowCol x2 f2 b r)
    (h3 : ∀ (b : Fin B) (r : Fin R), y3 (ix2 b r) = rowCol x3 f3 b r)
    (hout : ∀ (b : Fin B) (o : Fin O), out (ix2 b o) = rowCol (fun j => y1 j * y2 j * y3 j) g b o) :
    out = fused x1 x2 x3 f1 f2 f3 g := by
  funext i
  obtain ⟨b, o, rfl⟩ : ∃ (b : Fin B) (o : Fin O), i = ix2 b o := ⟨i 0, i 1, eq_ix2 i⟩
  rw [hout]
  show rowCol (fun j => y1 j * y2 j * y3 j) g b o = rowCol (hadamard x1 x2 x3 f1 f2 f3) g b o
  refine congrArg (fun y => rowCol y g b o) (funext fun j => ?_)
  obtain ⟨b', r, rfl⟩ : ∃ (b' : Fin B) (r : Fin R), j = ix2 b' r := ⟨j 0, j 1, eq_ix2 j⟩
  show y1 (ix2 b' r) * y2 (ix2 b' r) * y3 (ix2 b' r) = rowCol x1 f1 b' r * rowCol x2 f2 b' r * rowCol x3 f3 b' r
  rw [h1, h2, h3]

/-- Row `b'` of the fusion of modalities whose rows `b'` are rows `b` of other modalities (the factors and
    `g` shared) is row `b` of those others' fusion: the fusion of a block of rows is the block of the fusion. -/
theorem fused_row {B' : Nat} (x1 : (⟨2, ![B, D1]⟩ : Shape).Idx → EReal) (x2 : (⟨2, ![B, D2]⟩ : Shape).Idx → EReal)
    (x3 : (⟨2, ![B, D3]⟩ : Shape).Idx → EReal) (x1' : (⟨2, ![B', D1]⟩ : Shape).Idx → EReal)
    (x2' : (⟨2, ![B', D2]⟩ : Shape).Idx → EReal) (x3' : (⟨2, ![B', D3]⟩ : Shape).Idx → EReal)
    (f1 : (⟨2, ![D1, R]⟩ : Shape).Idx → EReal) (f2 : (⟨2, ![D2, R]⟩ : Shape).Idx → EReal)
    (f3 : (⟨2, ![D3, R]⟩ : Shape).Idx → EReal) (g : (⟨2, ![R, O]⟩ : Shape).Idx → EReal)
    (b : Fin B) (b' : Fin B') (o : Fin O)
    (h1 : ∀ k : Fin D1, x1' (ix2 b' k) = x1 (ix2 b k)) (h2 : ∀ k : Fin D2, x2' (ix2 b' k) = x2 (ix2 b k))
    (h3 : ∀ k : Fin D3, x3' (ix2 b' k) = x3 (ix2 b k)) :
    fused x1' x2' x3' f1 f2 f3 g (ix2 b' o) = fused x1 x2 x3 f1 f2 f3 g (ix2 b o) := by
  show rowCol (hadamard x1' x2' x3' f1 f2 f3) g b' o = rowCol (hadamard x1 x2 x3 f1 f2 f3) g b o
  unfold rowCol
  refine Finset.sum_congr rfl fun r _ => ?_
  show (rowCol x1' f1 b' r * rowCol x2' f2 b' r * rowCol x3' f3 b' r) * g (ix2 r o)
    = (rowCol x1 f1 b r * rowCol x2 f2 b r * rowCol x3 f3 b r) * g (ix2 r o)
  unfold rowCol
  simp only [h1, h2, h3]

/-- The same with the factors and `g` given twice, equal: what a grid point sees, its row blocks of the modalities
    beside its own whole copies of the factor matrices. -/
theorem fused_block {B' : Nat} (x1 : (⟨2, ![B, D1]⟩ : Shape).Idx → EReal) (x2 : (⟨2, ![B, D2]⟩ : Shape).Idx → EReal)
    (x3 : (⟨2, ![B, D3]⟩ : Shape).Idx → EReal) (x1' : (⟨2, ![B', D1]⟩ : Shape).Idx → EReal)
    (x2' : (⟨2, ![B', D2]⟩ : Shape).Idx → EReal) (x3' : (⟨2, ![B', D3]⟩ : Shape).Idx → EReal)
    (f1 f1' : (⟨2, ![D1, R]⟩ : Shape).Idx → EReal) (f2 f2' : (⟨2, ![D2, R]⟩ : Shape).Idx → EReal)
    (f3 f3' : (⟨2, ![D3, R]⟩ : Shape).Idx → EReal) (g g' : (⟨2, ![R, O]⟩ : Shape).Idx → EReal)
    (b : Fin B) (b' : Fin B') (o : Fin O)
    (h1 : ∀ k : Fin D1, x1' (ix2 b' k) = x1 (ix2 b k)) (h2 : ∀ k : Fin D2, x2' (ix2 b' k) = x2 (ix2 b k))
    (h3 : ∀ k : Fin D3, x3' (ix2 b' k) = x3 (ix2 b k))
    (e1 : f1' = f1) (e2 : f2' = f2) (e3 : f3' = f3) (eg : g' = g) :
    fused x1' x2' x3' f1' f2' f3' g' (ix2 b' o) = fused x1 x2 x3 f1 f2 f3 g (ix2 b o) := by
  subst e1 e2 e3 eg
  exact fused_row x1 x2 x3 x1' x2' x3' f1' f2' f3' g' b b' o h1 h2 h3

end Cert.RankFusion

end
-- ==== Proof.KernelPayload.lean ====
/-
  What the kernel body stores, as a function of what it loads.

  At one grid point the body loads a block of 1024 rows of each modality, the three factor matrices and the
  transposed output factor whole, forms the three projections [1024, 10] by matrix products into zero
  accumulators, multiplies them componentwise as (first * second) * third, and stores the product of that
  with the transposed output factor [10, 512]. On the extended reals each product into a zero accumulator is
  the plain matrix product, and the shape cast of the [10, 512] operand to its own shape is the identity, so
  the stored block is the low-rank fusion of the loaded blocks.
-/
import proofs.«401840_j40673340293781_3_alg».proof.Proof.Gen.KernelIdeal.Skeleton
import proofs.«401840_j40673340293781_3_alg».proof.Proof.FusionSpec
import Idealize.ShloMosaic.Lib.Pipeline.Value

noncomputable section

namespace Cert.KernelIdeal.Fusion

open Cert.KernelIdeal Cert.KernelIdeal.Gen Idealize.ShloMosaic Idealize.ShloMosaic.ValueIdx Cert.PlainDot

/-- The body's four products are plain: rows by contraction times contraction by columns. -/
theorem plain_x1 : IsPlain dot_S1024x1024_S1024x10_S1024x10_1_0_0_1_n_n := ⟨rfl, rfl, rfl, rfl, rfl, rfl⟩
theorem plain_x2 : IsPlain dot_S1024x512_S512x10_S1024x10_1_0_0_1_n_n := ⟨rfl, rfl, rfl, rfl, rfl, rfl⟩
theorem plain_x3 : IsPlain dot_S1024x768_S768x10_S1024x10_1_0_0_1_n_n := ⟨rfl, rfl, rfl, rfl, rfl, rfl⟩
theorem plain_out : IsPlain dot_S1024x10_S10x512_S1024x512_1_0_0_1_n_n := ⟨rfl, rfl, rfl, rfl, rfl, rfl⟩

/-- The stored value is the fusion of the loaded blocks: `x0`, `x1`, `x2` the modalities' row blocks, `x3`, `x4`,
    `x5` their factors, `x6` the transposed output factor. -/
theorem payload_eq (x0 : FVec Ideal S1024x1024 .f32) (x3 : FVec Ideal S1024x10 .f32) (x1 : FVec Ideal S1024x512 .f32)
    (x4 : FVec Ideal S512x10 .f32) (x2 : FVec Ideal S1024x768 .f32) (x5 : FVec Ideal S768x10 .f32)
    (x6 : FVec Ideal S10x512 .f32) :
    k0_pay1 (F := Ideal) x0 x3 x1 x4 x2 x5 x6 = RankFusion.fused x0 x1 x2 x3 x4 x5 x6 :=
  RankFusion.eq_fused_of_entries x0 x1 x2 x3 x4 x5 x6
    (matmul dot_S1024x1024_S1024x10_S1024x10_1_0_0_1_n_n none x0 x3 (constant (F := Ideal) S1024x10 .f32 0x00000000#32))
    (matmul dot_S1024x512_S512x10_S1024x10_1_0_0_1_n_n none x1 x4 (constant (F := Ideal) S1024x10 .f32 0x00000000#32))
    (matmul dot_S1024x768_S768x10_S1024x10_1_0_0_1_n_n none x2 x5 (constant (F := Ideal) S1024x10 .f32 0x00000000#32))
    _
    (fun b r => matmul_zero_apply plain_x1 none x0 x3 b r)
    (fun b r => matmul_zero_apply plain_x2 none x1 x4 b r)
    (fun b r => matmul_zero_apply plain_x3 none x2 x5 b r)
    (fun b o => by
      show matmul dot_S1024x10_S10x512_S1024x512_1_0_0_1_n_n none
          (mulf (mulf (matmul dot_S1024x1024_S1024x10_S1024x10_1_0_0_1_n_n none x0 x3 (constant (F := Ideal) S1024x10 .f32 0x00000000#32))
              (matmul dot_S1024x512_S512x10_S1024x10_1_0_0_1_n_n none x1 x4 (constant (F := Ideal) S1024x10 .f32 0x00000000#32)))
            (matmul dot_S1024x768_S768x10_S1024x10_1_0_0_1_n_n none x2 x5 (constant (F := Ideal) S1024x10 .f32 0x00000000#32)))
          (shapeCast S10x512 x6 shapeCasts_S10x512_S10x512) (constant (F := Ideal) S1024x512 .f32 0x00000000#32) (ix2 b o) = _
      refine (matmul_zero_apply plain_out none _ _ b o).trans ?_
      rw [shapeCast_self]
      rfl)

end Cert.KernelIdeal.Fusion

end
-- ==== Proof.KernelValue.lean ====
/-
  The kernel's output array after the run, as one function of the argument arrays.

  The grid has 64 points. Point t stages rows [1024 t, 1024 t + 1024) of each modality, every factor matrix
  whole, and the transposed output factor (which the host wrote before the launch) whole, and writes back
  rows [1024 t, 1024 t + 1024) of the output, all 512 columns. What it writes is the fusion of what it staged
  (the body's stored value), and a row of the fusion depends on the modalities through that row alone, so
  point t writes exactly rows [1024 t, 1024 t + 1024) of the fusion of the whole arrays. Row r of the output
  lies in the block of point r / 1024, so the 64 blocks cover the array, which therefore ends holding the
  fusion of the arguments with the transposed output factor.
-/
import proofs.«401840_j40673340293781_3_alg».proof.Proof.Gen.KernelIdeal.Value
import proofs.«401840_j40673340293781_3_alg».proof.Proof.KernelPayload
import Idealize.ShloMosaic.Lib.StableHlo.Run

set_option maxRecDepth 16384

noncomputable section

namespace Cert.KernelIdeal.Fusion

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The printed index maps over the 64 points: a modality's window and the output's sit at block row t, block
    column 0; a factor's window stays at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 64 := lt_of_lt_of_eq t.isLt N_0

/-- The array row that row p of point t's blocks is. -/
def rowOf (t : Fin cfg0.N) (p : Fin 1024) : Fin 65536 :=
  ⟨t.val * 1024 + p.val, by have := point_lt t; have := p.isLt; omega⟩

/-! ## The staged blocks, read off the arrays as the region finds them -/

/-- Row p of the first modality's block at point t is row 1024 t + p of the array. -/
theorem x1_block_row (c : Dev nD) (t : Fin cfg0.N) (p : Fin 1024) (k : Fin 1024) :
    iblk m c 0 t (ix2 p k) = V m c main_arg0 (ix2 (rowOf t p) k) := by
  obtain ⟨e0, e1, -⟩ := index_facts t
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- Row p of the second modality's block at point t is row 1024 t + p of the array. -/
theorem x2_block_row (c : Dev nD) (t : Fin cfg0.N) (p : Fin 1024) (k : Fin 512) :
    iblk m c 1 t (ix2 p k) = V m c main_arg1 (ix2 (rowOf t p) k) := by
  obtain ⟨-, -, e0, e1, -⟩ := index_facts t
  show V m c main_arg1 (((cfg0.win 1).blk t).view.emb (ix2 p k)) = V m c main_arg1 (ix2 (rowOf t p) k)
  refine congrArg (V m c main_arg1) (funext fun a => Fin.ext ?_)
  match a with
  | ⟨0, _⟩ => show win0_1.index t (0 : Fin 2) * 1024 + 1 * p.val = t.val * 1024 + p.val; omega
  | ⟨1, _⟩ => show win0_1.index t (1 : Fin 2) * 512 + 1 * k.val = k.val; omega

/-- Row p of the third modality's block at point t is row 1024 t + p of the array. -/
theorem x3_block_row (c : Dev nD) (t : Fin cfg0.N) (p : Fin 1024) (k : Fin 768) :
    iblk m c 2 t (ix2 p k) = V m c main_arg2 (ix2 (rowOf t p) k) := by
  obtain ⟨-, -, -, -, e0, e1, -⟩ := index_facts t
  show V m c main_arg2 (((cfg0.win 2).blk t).view.emb (ix2 p k)) = V m c main_arg2 (ix2 (rowOf t p) k)
  refine congrArg (V m c main_arg2) (funext fun a => Fin.ext ?_)
  match a with
  | ⟨0, _⟩ => show win0_2.index t (0 : Fin 2) * 1024 + 1 * p.val = t.val * 1024 + p.val; omega
  | ⟨1, _⟩ => show win0_2.index t (1 : Fin 2) * 768 + 1 * k.val = k.val; omega

/-- The first factor's block at every point is the whole factor. -/
theorem f1_block (c : Dev nD) (t : Fin cfg0.N) : (iblk m c 3 t : S1024x10.Idx → EReal) = V m c main_arg3 := by
  obtain ⟨-, -, -, -, -, -, e0, e1, -⟩ := index_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 1024 + 1 * (y 0).val = (y 0).val; omega
  | ⟨1, _⟩ => show win0_3.index t (1 : Fin 2) * 10 + 1 * (y 1).val = (y 1).val; omega

/-- The second factor's block at every point is the whole factor. -/
theorem f2_block (c : Dev nD) (t : Fin cfg0.N) : (iblk m c 4 t : S512x10.Idx → EReal) = V m c main_arg4 := by
  obtain ⟨-, -, -, -, -, -, -, -, e0, e1, -⟩ := index_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 512 + 1 * (y 0).val = (y 0).val; omega
  | ⟨1, _⟩ => show win0_4.index t (1 : Fin 2) * 10 + 1 * (y 1).val = (y 1).val; omega

/-- The third factor's block at every point is the whole factor. -/
theorem f3_block (c : Dev nD) (t : Fin cfg0.N) : (iblk m c 5 t : S768x10.Idx → EReal) = V m c main_arg5 := by
  obtain ⟨-, -, -, -, -, -, -, -, -, -, e0, e1, -⟩ := index_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 768 + 1 * (y 0).val = (y 0).val; omega
  | ⟨1, _⟩ => show win0_5.index t (1 : Fin 2) * 10 + 1 * (y 1).val = (y 1).val; omega

/-- The transposed output factor's block at every point is the whole array the host wrote. -/
theorem g_block (c : Dev nD) (t : Fin cfg0.N) : (iblk m c 6 t : S10x512.Idx → EReal) = V m c main_v0 := by
  obtain ⟨-, -, -, -, -, -, -, -, -, -, -, -, e0, e1, -⟩ := index_facts t
  funext y
  show V m c main_v0 (((cfg0.win 6).blk t).view.emb y) = V m c main_v0 y
  refine congrArg (V m c main_v0) (funext fun a => Fin.ext ?_)
  match a with
  | ⟨0, _⟩ => show win0_6.index t (0 : Fin 2) * 10 + 1 * (y 0).val = (y 0).val; omega
  | ⟨1, _⟩ => show win0_6.index t (1 : Fin 2) * 512 + 1 * (y 1).val = (y 1).val; omega

/-- Entry (p, o) of the output's block at point t sits at row 1024 t + p, column o of the array. -/
theorem out_block_emb (t : Fin cfg0.N) (p : Fin 1024) (o : Fin 512) :
    ((cfg0.win 7).blk t).view.emb (ix2 p o) = ix2 (rowOf t p) o := by
  obtain ⟨-, -, -, -, -, -, -, -, -, -, -, -, -, -, e0, e1⟩ := index_facts t
  funext a; apply Fin.ext
  match a with
  | ⟨0, _⟩ => show win0_7.index t (0 : Fin 2) * 1024 + 1 * p.val = t.val * 1024 + p.val; omega
  | ⟨1, _⟩ => show win0_7.index t (1 : Fin 2) * 512 + 1 * o.val = o.val; omega

/-! ## What a point writes back -/

/-- The fusion of the arrays as the region finds them. -/
def wholeAt (c : Dev nD) : S65536x512.Idx → EReal :=
  RankFusion.fused (V m c main_arg0) (V m c main_arg1) (V m c main_arg2) (V m c main_arg3) (V m c main_arg4)
    (V m c main_arg5) (V m c main_v0)

/-- Point t writes back block t of the fusion of the whole arrays. -/
theorem flushed_eq (c : Dev nD) (t : Fin cfg0.N) :
    (dats m 0 c).flushed 7 t = ((cfg0.win 7).blk t).view.read (Elt Ideal) (wholeAt m c) := by
  rw [Value.flushed7]
  unfold out0_7
  rw [View.canon_unit_zero zero_off]
  simp only [View.ld_unit_zero (S := S1024x1024) zero_off, View.ld_unit_zero (S := S1024x10) zero_off,
    View.ld_unit_zero (S := S1024x512) zero_off, View.ld_unit_zero (S := S512x10) zero_off,
    View.ld_unit_zero (S := S1024x768) zero_off, View.ld_unit_zero (S := S768x10) zero_off,
    View.ld_unit_zero (S := S10x512) zero_off]
  funext j
  obtain ⟨p, o, rfl⟩ : ∃ (p : Fin 1024) (o : Fin 512), j = ix2 p o := ⟨j 0, j 1, eq_ix2 j⟩
  show k0_pay1 (F := Ideal) (iblk m c 0 t) (iblk m c 3 t) (iblk m c 1 t) (iblk m c 4 t) (iblk m c 2 t) (iblk m c 5 t)
      (iblk m c 6 t) (ix2 p o) = wholeAt m c (((cfg0.win 7).blk t).view.emb (ix2 p o))
  rw [out_block_emb t p o]
  refine (congrFun (payload_eq (iblk m c 0 t) (iblk m c 3 t) (iblk m c 1 t) (iblk m c 4 t) (iblk m c 2 t)
    (iblk m c 5 t) (iblk m c 6 t)) (ix2 p o)).trans ?_
  exact RankFusion.fused_block (V m c main_arg0) (V m c main_arg1) (V m c main_arg2) (iblk m c 0 t) (iblk m c 1 t)
    (iblk m c 2 t) (V m c main_arg3) (iblk m c 3 t) (V m c main_arg4) (iblk m c 4 t) (V m c main_arg5) (iblk m c 5 t)
    (V m c main_v0) (iblk m c 6 t) (rowOf t p) p o (x1_block_row m c t p) (x2_block_row m c t p) (x3_block_row m c t p)
    (f1_block m c t) (f2_block m c t) (f3_block m c t) (g_block m c t)

/-! ## The blocks cover the array -/

/-- An index of the array is in point t's block iff each coordinate is in the block's range on its axis. -/
theorem mem_block (t : Fin cfg0.N) (i : S65536x512.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v1).slice (win0_7.rect t)).set ↔ _
  rw [View.set_slice_whole, Rect.mem_set_unit]
  exact Iff.rfl

/-- Row r of the output lies in the block of point r / 1024. -/
theorem covered (i : S65536x512.Idx) :
    ∃ t : Fin cfg0.N, (cfg0.win 7).flush t = true ∧ i ∈ ((cfg0.win 7).blk t).view.set := by
  have hi0 : (i 0).val < 65536 := (i 0).isLt
  have hi1 : (i 1).val < 512 := (i 1).isLt
  have hN : cfg0.N = 64 := N_0
  refine ⟨⟨(i 0).val / 1024, by rw [hN]; omega⟩, flush0_7 _, ?_⟩
  obtain ⟨-, -, -, -, -, -, -, -, -, -, -, -, -, -, e0, e1⟩ :=
    index_facts ⟨(i 0).val / 1024, by rw [hN]; omega⟩
  rw [mem_block]
  intro a
  match a with
  | ⟨0, _⟩ =>
    show win0_7.index ⟨(i 0).val / 1024, _⟩ (0 : Fin 2) * 1024 ≤ (i 0).val
      ∧ (i 0).val < win0_7.index ⟨(i 0).val / 1024, _⟩ (0 : Fin 2) * 1024 + 1024
    rw [e0]
    show (i 0).val / 1024 * 1024 ≤ (i 0).val ∧ (i 0).val < (i 0).val / 1024 * 1024 + 1024
    omega
  | ⟨1, _⟩ =>
    show win0_7.index ⟨(i 0).val / 1024, _⟩ (1 : Fin 2) * 512 ≤ (i 1).val
      ∧ (i 1).val < win0_7.index ⟨(i 0).val / 1024, _⟩ (1 : Fin 2) * 512 + 512
    rw [e1]
    omega

/-- The output array after the run is the fusion of the arrays as the region finds them. -/
theorem final (c : Dev nD) : (dats m 0 c).arrAt 7 cfg0.N = wholeAt m c :=
  (dats m 0 c).arrAt_eq_of_cover 7 (wholeAt m c) (fun t _ => flushed_eq m c t) covered

/-! ## In terms of the arguments -/

/-- The array window 6 stages is the transpose the host wrote before the launch. -/
theorem transposed_factor (c : Dev nD) :
    (V m c main_v0 : S10x512.Idx → EReal)
      = transpose S10x512 [1, 0] (m ((c : Thread nD τ).loc main_arg6)) transposes_S512x10_S10x512_1_0 := by
  dsimp only [Gen.V, Gen.hostOps0]
  after_results

/-- The fusion of the arrays the region finds is the fusion of the arguments with the transposed output factor. -/
theorem wholeAt_eq (c : Dev nD) :
    wholeAt m c = RankFusion.fused (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))
      (transpose S10x512 [1, 0] (m ((c : Thread nD τ).loc main_arg6)) transposes_S512x10_S10x512_1_0) := by
  unfold wholeAt
  rw [V_main_arg0, V_main_arg1, V_main_arg2, V_main_arg3, V_main_arg4, V_main_arg5, transposed_factor]

/-- The kernel's run: the output array ends at the fusion of the arguments, the arguments unchanged. -/
theorem run : θ_run defs (onTc (τ := τ) (main (F := Ideal))) ⟨m, fun _ => 0, ρ⟩ fun r => ∀ c : Dev nD,
      r.2.mem ((c : Thread nD τ).loc main_v1)
        = RankFusion.fused (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
          (transpose S10x512 [1, 0] (m ((c : Thread nD τ).loc main_arg6)) transposes_S512x10_S10x512_1_0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (wholeAt_eq m c)), (h c).2⟩)
    (Value.run_blocks m ρ)

end Cert.KernelIdeal.Fusion

end
-- ==== Proof.ReferenceValue.lean ====
/-
  What the reference computes, as a function of its arguments.

  The reference forms the three projections of the whole batch [65536, 10] by host matrix products,
  multiplies them componentwise as (first * second) * third, and multiplies the result with the transposed
  output factor [10, 512]. On the extended reals a host matrix product is the plain one, so the composed
  term is the low-rank fusion of the argument arrays; the transposed factor is carried as an array `g`,
  never opened.
-/
import proofs.«401840_j40673340293781_3_alg».proof.Proof.Gen.ReferenceIdeal
import proofs.«401840_j40673340293781_3_alg».proof.Proof.FusionSpec

noncomputable section

namespace Cert.ReferenceIdeal.Fusion

open Cert.ReferenceIdeal Cert.ReferenceIdeal.Gen Idealize.ShloMosaic Idealize.ShloMosaic.ValueIdx Cert.PlainDot

/-- The reference's four products are plain: rows by contraction times contraction by columns. -/
theorem plain_x1 : IsPlain dot_S65536x1024_S1024x10_S65536x10_1_0_0_1_n_n := ⟨rfl, rfl, rfl, rfl, rfl, rfl⟩
theorem plain_x2 : IsPlain dot_S65536x512_S512x10_S65536x10_1_0_0_1_n_n := ⟨rfl, rfl, rfl, rfl, rfl, rfl⟩
theorem plain_x3 : IsPlain dot_S65536x768_S768x10_S65536x10_1_0_0_1_n_n := ⟨rfl, rfl, rfl, rfl, rfl, rfl⟩
theorem plain_out : IsPlain dot_S65536x10_S10x512_S65536x512_1_0_0_1_n_n := ⟨rfl, rfl, rfl, rfl, rfl, rfl⟩

/-- The reference's composed term is the fusion of its arguments, `g` standing for the transposed output factor. -/
theorem reference_eq (x0 : FVec Ideal S65536x1024 .f32) (x1 : FVec Ideal S65536x512 .f32) (x2 : FVec Ideal S65536x768 .f32)
    (x3 : FVec Ideal S1024x10 .f32) (x4 : FVec Ideal S512x10 .f32) (x5 : FVec Ideal S768x10 .f32)
    (g : FVec Ideal S10x512 .f32) :
    Host.dotGeneral dot_S65536x10_S10x512_S65536x512_1_0_0_1_n_n none
        (mulf (mulf (Host.dotGeneral dot_S65536x1024_S1024x10_S65536x10_1_0_0_1_n_n none x0 x3)
            (Host.dotGeneral dot_S65536x512_S512x10_S65536x10_1_0_0_1_n_n none x1 x4))
          (Host.dotGeneral dot_S65536x768_S768x10_S65536x10_1_0_0_1_n_n none x2 x5)) g
      = RankFusion.fused x0 x1 x2 x3 x4 x5 g :=
  RankFusion.eq_fused_of_entries x0 x1 x2 x3 x4 x5 g
    (Host.dotGeneral dot_S65536x1024_S1024x10_S65536x10_1_0_0_1_n_n none x0 x3)
    (Host.dotGeneral dot_S65536x512_S512x10_S65536x10_1_0_0_1_n_n none x1 x4)
    (Host.dotGeneral dot_S65536x768_S768x10_S65536x10_1_0_0_1_n_n none x2 x5)
    _
    (fun b r => dotGeneral_apply plain_x1 none x0 x3 b r)
    (fun b r => dotGeneral_apply plain_x2 none x1 x4 b r)
    (fun b r => dotGeneral_apply plain_x3 none x2 x5 b r)
    (fun b o => dotGeneral_apply plain_out none _ g b o)

end Cert.ReferenceIdeal.Fusion

end
-- ==== Proof.lean ====
/-
  Low-rank fusion of three modalities: the kernel against its jnp reference, equal over the extended reals.

  Both programs compute, for a batch row b and an output column o,

      out (b, o) = sum over r < 10 of ( (x1 f1)(b, r) * (x2 f2)(b, r) * (x3 f3)(b, r) ) * f_out (o, r),

  the three projections x_i f_i [65536, 10] multiplied componentwise, grouped (first * second) * third in both
  programs, and expanded by the transpose of f_out [512, 10], which both programs form on the host with the
  same operation. The reference takes the four matrix products over the whole batch. The kernel takes them
  block by block: 64 grid points, point t on rows [1024 t, 1024 t + 1024), each product accumulated into a
  zero splat. On the extended reals a product into a zero accumulator and the host's product are the same
  plain sum, and a row of the result depends on the modalities through that row alone, so each block the kernel
  writes is the matching block of the reference's result, and the 64 blocks cover the output. No step moves a
  factor across a sum or cancels anything, so the finiteness of the inputs is never used.

  The modules: LibPlainDot (a plain matrix product read at an index, for both product operations), FusionSpec
  (the function above over generic extents, and that it is local to rows), KernelPayload (what the body stores
  is the fusion of what it loads), KernelValue (from the blocks to the whole output array, and the kernel's run),
  ReferenceValue (the reference's term is the same function). The frames are the generated ones; the idealization
  rewrote nothing, so its statement is trivial.
-/
import proofs.«401840_j40673340293781_3_alg».proof.Defs
import proofs.«401840_j40673340293781_3_alg».proof.Proof.Gen.Kernel
import proofs.«401840_j40673340293781_3_alg».proof.Proof.Gen.Kernel.Skeleton
import proofs.«401840_j40673340293781_3_alg».proof.Proof.Gen.Kernel.Launch
import proofs.«401840_j40673340293781_3_alg».proof.Proof.Gen.Kernel.Points
import proofs.«401840_j40673340293781_3_alg».proof.Proof.Gen.Kernel.Frame
import proofs.«401840_j40673340293781_3_alg».proof.Proof.Gen.KernelIdeal
import proofs.«401840_j40673340293781_3_alg».proof.Proof.Gen.KernelIdeal.Skeleton
import proofs.«401840_j40673340293781_3_alg».proof.Proof.Gen.KernelIdeal.Launch
import proofs.«401840_j40673340293781_3_alg».proof.Proof.Gen.KernelIdeal.Points
import proofs.«401840_j40673340293781_3_alg».proof.Proof.Gen.KernelIdeal.Frame
import proofs.«401840_j40673340293781_3_alg».proof.Proof.Gen.ReferenceIdeal
import proofs.«401840_j40673340293781_3_alg».proof.Proof.Gen.Pre_finite_inputs
import proofs.«401840_j40673340293781_3_alg».proof.Proof.Gen.KernelIdeal.Value
import proofs.«401840_j40673340293781_3_alg».proof.Proof.Gen.ReferenceIdeal.Run
import proofs.«401840_j40673340293781_3_alg».proof.Proof.KernelValue
import proofs.«401840_j40673340293781_3_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's output array and the reference's result both end at the
    fusion of the arguments with the transposed output factor. -/
theorem algebraic : Cert.algebraic_KernelIdeal_ReferenceIdeal := by
  intro m ρ m' ρ' _ hagree
  refine ⟨_, Cert.KernelIdeal.Fusion.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2]
  exact Cert.ReferenceIdeal.Fusion.reference_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
